-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x7168 : Shape := ⟨2, ![32, 7168]⟩
abbrev S16384x7168 : Shape := ⟨2, ![16384, 7168]⟩
abbrev S128x56 : Shape := ⟨2, ![128, 56]⟩
abbrev S_ : Shape := ⟨0, ![]⟩

class Facts : Prop where
  bcast_S_S32x7168 : S_.BroadcastsInDim S32x7168 (![] : Fin 0 → Fin S32x7168.rank)
  reducesTo_S32x7168_S_d0_1 : S32x7168.ReducesTo [0, 1] S_
  h_S_ : 0 < S_.numel
  bcast_S_S16384x7168 : S_.BroadcastsInDim S16384x7168 (![] : Fin 0 → Fin S16384x7168.rank)
  reducesTo_S16384x7168_S_d0_1 : S16384x7168.ReducesTo [0, 1] S_
  bcast_S_S128x56 : S_.BroadcastsInDim S128x56 (![] : Fin 0 → Fin S128x56.rank)
  reducesTo_S128x56_S_d0_1 : S128x56.ReducesTo [0, 1] S_

variable [Facts]

def fn {F : FTy → Type} [FloatOps F] (main_arg0 : FVec F S32x7168 .f32) (main_arg1 : FVec F S16384x7168 .f32) (main_arg2 : FVec F S128x56 .f32) : IVec S_ 1 :=
  let main_v0 : FVec F S32x7168 .f32 := Host.absf main_arg0
  let main_cst : FVec F S_ .f32 := constant S_ .f32 0x7F800000#32
  let main_v1 : FVec F S32x7168 .f32 := broadcastInDim S32x7168 ![] bcast_S_S32x7168 main_cst
  let main_v2 : IVec S32x7168 1 := cmpf .olt main_v0 main_v1
  let main_c : IVec S_ 1 := constantI S_ 1 1#1
  let main_v3 : IVec S_ 1 := (fun x v => Host.reduce IntOp.andi x v reducesTo_S32x7168_S_d0_1 h_S_) main_v2 main_c
  let main_v4 : FVec F S16384x7168 .f32 := Host.absf main_arg1
  let main_cst_0 : FVec F S_ .f32 := constant S_ .f32 0x7F800000#32
  let main_v5 : FVec F S16384x7168 .f32 := broadcastInDim S16384x7168 ![] bcast_S_S16384x7168 main_cst_0
  let main_v6 : IVec S16384x7168 1 := cmpf .olt main_v4 main_v5
  let main_c_1 : IVec S_ 1 := constantI S_ 1 1#1
  let main_v7 : IVec S_ 1 := (fun x v => Host.reduce IntOp.andi x v reducesTo_S16384x7168_S_d0_1 h_S_) main_v6 main_c_1
  let main_v8 : IVec S_ 1 := andi main_v3 main_v7
  let main_v9 : FVec F S128x56 .f32 := Host.absf main_arg2
  let main_cst_2 : FVec F S_ .f32 := constant S_ .f32 0x7F800000#32
  let main_v10 : FVec F S128x56 .f32 := broadcastInDim S128x56 ![] bcast_S_S128x56 main_cst_2
  let main_v11 : IVec S128x56 1 := cmpf .olt main_v9 main_v10
  let main_c_3 : IVec S_ 1 := constantI S_ 1 1#1
  let main_v12 : IVec S_ 1 := (fun x v => Host.reduce IntOp.andi x v reducesTo_S128x56_S_d0_1 h_S_) main_v11 main_c_3
  let main_v13 : IVec S_ 1 := andi main_v8 main_v12
  main_v13
-- ==== Kernel.lean ====
abbrev S32x7168 : Shape := ⟨2, ![32, 7168]⟩
abbrev S16384x7168 : Shape := ⟨2, ![16384, 7168]⟩
abbrev S128x56 : Shape := ⟨2, ![128, 56]⟩
abbrev S128x128x56 : Shape := ⟨3, ![128, 128, 56]⟩
abbrev S16384x56 : Shape := ⟨2, ![16384, 56]⟩
abbrev S7168 : Shape := ⟨1, ![7168]⟩
abbrev S_ : Shape := ⟨0, ![]⟩
abbrev S56 : Shape := ⟨1, ![56]⟩
abbrev S56x1 : Shape := ⟨2, ![56, 1]⟩
abbrev S1x7168 : Shape := ⟨2, ![1, 7168]⟩
abbrev S56x7168 : Shape := ⟨2, ![56, 7168]⟩
abbrev S32x16384 : Shape := ⟨2, ![32, 16384]⟩
abbrev S256x7168 : Shape := ⟨2, ![256, 7168]⟩
abbrev S256x56 : Shape := ⟨2, ![256, 56]⟩
abbrev S32x256 : Shape := ⟨2, ![32, 256]⟩

abbrev nBuf : Space → Nat
  | .hbm => 33
  | .vmem => 8
  | .smem => 0
  | _ => 0

abbrev bufTy : (tb : Table) → Fin (tcTables nBuf tb) → BufTy
  | .hbm, ⟨0, _⟩ => ⟨S32x7168, .f32⟩
  | .hbm, ⟨1, _⟩ => ⟨S16384x7168, .f32⟩
  | .hbm, ⟨2, _⟩ => ⟨S128x56, .f32⟩
  | .hbm, ⟨3, _⟩ => ⟨S128x128x56, .f32⟩
  | .hbm, ⟨4, _⟩ => ⟨S16384x56, .f32⟩
  | .hbm, ⟨5, _⟩ => ⟨S7168, .i32⟩
  | .hbm, ⟨6, _⟩ => ⟨S_, .i32⟩
  | .hbm, ⟨7, _⟩ => ⟨S_, .i32⟩
  | .hbm, ⟨8, _⟩ => ⟨S7168, .i32⟩
  | .hbm, ⟨9, _⟩ => ⟨S7168, .i32⟩
  | .hbm, ⟨10, _⟩ => ⟨S7168, .i32⟩
  | .hbm, ⟨11, _⟩ => ⟨S_, .i32⟩
  | .hbm, ⟨12, _⟩ => ⟨S7168, .i32⟩
  | .hbm, ⟨13, _⟩ => ⟨S7168, .i1⟩
  | .hbm, ⟨14, _⟩ => ⟨S7168, .i32⟩
  | .hbm, ⟨15, _⟩ => ⟨S7168, .i32⟩
  | .hbm, ⟨16, _⟩ => ⟨S_, .i32⟩
  | .hbm, ⟨17, _⟩ => ⟨S7168, .i32⟩
  | .hbm, ⟨18, _⟩ => ⟨S7168, .i1⟩
  | .hbm, ⟨19, _⟩ => ⟨S7168, .i1⟩
  | .hbm, ⟨20, _⟩ => ⟨S_, .i32⟩
  | .hbm, ⟨21, _⟩ => ⟨S7168, .i32⟩
  | .hbm, ⟨22, _⟩ => ⟨S7168, .i32⟩
  | .hbm, ⟨23, _⟩ => ⟨S7168, .i32⟩
  | .hbm, ⟨24, _⟩ => ⟨S56, .i32⟩
  | .hbm, ⟨25, _⟩ => ⟨S56x1, .i32⟩
  | .hbm, ⟨26, _⟩ => ⟨S1x7168, .i32⟩
  | .hbm, ⟨27, _⟩ => ⟨S56x7168, .i32⟩
  | .hbm, ⟨28, _⟩ => ⟨S56x7168, .i32⟩
  | .hbm, ⟨29, _⟩ => ⟨S56x7168, .i1⟩
  | .hbm, ⟨30, _⟩ => ⟨S56x7168, .bf16⟩
  | .hbm, ⟨31, _⟩ => ⟨S32x7168, .bf16⟩
  | .hbm, ⟨32, _⟩ => ⟨S32x16384, .f32⟩
  | .local _ .vmem, ⟨0, _⟩ => ⟨S32x7168, .bf16⟩
  | .local _ .vmem, ⟨1, _⟩ => ⟨S256x7168, .f32⟩
  | .local _ .vmem, ⟨2, _⟩ => ⟨S256x7168, .f32⟩
  | .local _ .vmem, ⟨3, _⟩ => ⟨S256x56, .f32⟩
  | .local _ .vmem, ⟨4, _⟩ => ⟨S256x56, .f32⟩
  | .local _ .vmem, ⟨5, _⟩ => ⟨S56x7168, .bf16⟩
  | .local _ .vmem, ⟨6, _⟩ => ⟨S32x256, .f32⟩
  | .local _ .vmem, ⟨7, _⟩ => ⟨S32x256, .f32⟩
  | _, _ => ⟨S32x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S56x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S128x56_S128x128x56_0_2 : S128x56.BroadcastsInDim S128x128x56 (![0, 2] : Fin 2 → Fin S128x128x56.rank)
  shapeCasts_S128x128x56_S16384x56 : S128x128x56.ShapeCasts S16384x56
  bcast_S_S7168 : S_.BroadcastsInDim S7168 (![] : Fin 0 → Fin S7168.rank)
  bcast_S56_S56x1_0 : S56.BroadcastsInDim S56x1 (![0] : Fin 1 → Fin S56x1.rank)
  bcast_S7168_S1x7168_1 : S7168.BroadcastsInDim S1x7168 (![1] : Fin 1 → Fin S1x7168.rank)
  bcast_S56x1_S56x7168_0_1 : S56x1.BroadcastsInDim S56x7168 (![0, 1] : Fin 2 → Fin S56x7168.rank)
  bcast_S1x7168_S56x7168_0_1 : S1x7168.BroadcastsInDim S56x7168 (![0, 1] : Fin 2 → Fin S56x7168.rank)
  bitsLt_bf16_f32 : FTy.bits .bf16 < FTy.bits .f32
  inb_S256x56_S256x56_0_0 : ∀ a, (![0, 0] : Fin 2 → Nat) a + S256x56.size a ≤ S256x56.size a
  h_S256x56 : 0 < S256x56.numel
  shapeCasts_S256x56_S256x56 : S256x56.ShapeCasts S256x56
  inb_S56x7168_S56x7168_0_0 : ∀ a, (![0, 0] : Fin 2 → Nat) a + S56x7168.size a ≤ S56x7168.size a
  h_S56x7168 : 0 < S56x7168.numel
  shapeCasts_S56x7168_S56x7168 : S56x7168.ShapeCasts S56x7168
  inb_S256x7168_S256x7168_0_0 : ∀ a, (![0, 0] : Fin 2 → Nat) a + S256x7168.size a ≤ S256x7168.size a
  h_S256x7168 : 0 < S256x7168.numel
  inb_S32x7168_S32x7168_0_0 : ∀ a, (![0, 0] : Fin 2 → Nat) a + S32x7168.size a ≤ S32x7168.size a
  h_S32x7168 : 0 < S32x7168.numel
  shapeCasts_S32x7168_S32x7168 : S32x7168.ShapeCasts S32x7168
  inb_S32x256_S32x256_0_0 : ∀ a, (![0, 0] : Fin 2 → Nat) a + S32x256.size a ≤ S32x256.size a
  h_S32x256 : 0 < S32x256.numel
  dot_S256x56_S56x7168_S256x7168_1_0_0_1_n_n_wf : DotDims.WF S256x56 S56x7168 S256x7168 [1] [0] [0] [1] [] []
  dot_S32x7168_S256x7168_S32x256_1_1_0_0_n_n_wf : DotDims.WF S32x7168 S256x7168 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x7168.size a ≤ S32x7168.size a
  hwx0_0 : ∀ i : grid0.Coords, EltTy.bits .bf16 = 32 ∨ (Rect.block (s := S32x7168) S32x7168.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x7168.size a ≤ S16384x7168.size a
  hwx0_1 : ∀ i : grid0.Coords, EltTy.bits .f32 = 32 ∨ (Rect.block (s := S16384x7168) S256x7168.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x56.size a ≤ S16384x56.size a
  hwx0_2 : ∀ i : grid0.Coords, EltTy.bits .f32 = 32 ∨ (Rect.block (s := S16384x56) S256x56.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S56x7168.size a ≤ S56x7168.size a
  hwx0_3 : ∀ i : grid0.Coords, EltTy.bits .bf16 = 32 ∨ (Rect.block (s := S56x7168) S56x7168.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x16384.size a
  hwx0_4 : ∀ i : grid0.Coords, EltTy.bits .f32 = 32 ∨ (Rect.block (s := S32x16384) S32x256.size (cc0_transform_4 i) (hinb0_4 i)).WholeWords (EltTy.packing .f32)

variable [Facts₀]

def dot_S256x56_S56x7168_S256x7168_1_0_0_1_n_n : DotDims S256x56 S56x7168 S256x7168 where
  lhsContracting := [1]
  rhsContracting := [0]
  lhsNonContracting := [0]
  rhsNonContracting := [1]
  lhsBatch := []
  rhsBatch := []
  wf := dot_S256x56_S56x7168_S256x7168_1_0_0_1_n_n_wf
def dot_S32x7168_S256x7168_S32x256_1_1_0_0_n_n : DotDims S32x7168 S256x7168 S32x256 where
  lhsContracting := [1]
  rhsContracting := [1]
  lhsNonContracting := [0]
  rhsNonContracting := [0]
  lhsBatch := []
  rhsBatch := []
  wf := dot_S32x7168_S256x7168_S32x256_1_1_0_0_n_n_wf

abbrev win0_0 : Pipeline.Window sig grid0 :=
  Pipeline.Window.ofSpec (Memref.whole main_v11) S32x7168.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x7168.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S56x7168.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x7168 : Shape := ⟨2, ![32, 7168]⟩
abbrev S16384x7168 : Shape := ⟨2, ![16384, 7168]⟩
abbrev S128x56 : Shape := ⟨2, ![128, 56]⟩
abbrev S128x128x56x128 : Shape := ⟨4, ![128, 128, 56, 128]⟩
abbrev S128x1x56x1 : Shape := ⟨4, ![128, 1, 56, 1]⟩
abbrev S32x16384 : Shape := ⟨2, ![32, 16384]⟩

abbrev nBuf : Space → Nat
  | .hbm => 9
  | .vmem => 0
  | .smem => 0
  | _ => 0

abbrev bufTy : (tb : Table) → Fin (tcTables nBuf tb) → BufTy
  | .hbm, ⟨0, _⟩ => ⟨S32x7168, .f32⟩
  | .hbm, ⟨1, _⟩ => ⟨S16384x7168, .f32⟩
  | .hbm, ⟨2, _⟩ => ⟨S128x56, .f32⟩
  | .hbm, ⟨3, _⟩ => ⟨S128x128x56x128, .f32⟩
  | .hbm, ⟨4, _⟩ => ⟨S128x1x56x1, .f32⟩
  | .hbm, ⟨5, _⟩ => ⟨S128x128x56x128, .f32⟩
  | .hbm, ⟨6, _⟩ => ⟨S128x128x56x128, .f32⟩
  | .hbm, ⟨7, _⟩ => ⟨S16384x7168, .f32⟩
  | .hbm, ⟨8, _⟩ => ⟨S32x16384, .f32⟩
  | _, _ => ⟨S32x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S16384x7168_S128x128x56x128 : S16384x7168.ShapeCasts S128x128x56x128
  bcast_S128x56_S128x1x56x1_0_2 : S128x56.BroadcastsInDim S128x1x56x1 (![0, 2] : Fin 2 → Fin S128x1x56x1.rank)
  bcast_S128x1x56x1_S128x128x56x128_0_1_2_3 : S128x1x56x1.BroadcastsInDim S128x128x56x128 (![0, 1, 2, 3] : Fin 4 → Fin S128x128x56x128.rank)
  shapeCasts_S128x128x56x128_S16384x7168 : S128x128x56x128.ShapeCasts S16384x7168
  dot_S32x7168_S16384x7168_S32x16384_1_1_0_0_n_n_wf : DotDims.WF S32x7168 S16384x7168 S32x16384 [1] [1] [0] [0] [] []

variable [Facts₀]

def dot_S32x7168_S16384x7168_S32x16384_1_1_0_0_n_n : DotDims S32x7168 S16384x7168 S32x16384 where
  lhsContracting := [1]
  rhsContracting := [1]
  lhsNonContracting := [0]
  rhsNonContracting := [0]
  lhsBatch := []
  rhsBatch := []
  wf := dot_S32x7168_S16384x7168_S32x16384_1_1_0_0_n_n_wf

class Facts : Prop extends Facts₀ where

variable [Facts]
-- ==== Proof.LibFloorDiv.lean ====
/-
  Floor division of 32-bit words in its lowered form (a quotient toward zero, corrected), read at an element.

  The quotient rounded toward zero is corrected by one when the operands' signs differ and the remainder is not zero:
  `select (sign x ≠ sign d ∧ x rem d ≠ 0) (x div d − 1) (x div d)`. For a dividend `0 ≤ x < 2³¹` and a divisor
  `0 < d < 2³¹` neither word has its top bit set, so the signed quotient and remainder are the unsigned ones, the
  correction never fires (a zero dividend has a zero remainder; a positive one has the divisor's sign), and the result
  is the word of the natural quotient `x / d`.
-/
import Mathlib.Data.BitVec
import Idealize.ShloMosaic.PureOps.Vector
import Idealize.ShloMosaic.Lib.ValueIdx

namespace Cert.LibFloorDiv

open Idealize.ShloMosaic

/-- The sign word of a 32-bit integer: `0`, `-1` or `1`. -/
def sgn (x : BitVec 32) : BitVec 32 := if x = 0 then 0 else if x.msb then -1 else 1

theorem signi_apply {s : Shape} (x : IVec s 32) (j : s.Idx) : signi x j = sgn (x j) := rfl

/-- A positive word below `2³¹` has sign word one. -/
theorem sgn_of_pos {d : BitVec 32} (hd0 : 0 < d.toNat) (hd : d.toNat < 2 ^ 31) : sgn d = 1#32 := by
  have hne : d ≠ 0 := fun h => by rw [h] at hd0; exact absurd hd0 (by decide)
  have hm : d.msb = false := BitVec.msb_eq_false_iff_two_mul_lt.mpr (by omega)
  simp only [sgn, if_neg hne, hm, Bool.false_eq_true, if_false]
  rfl

/-- Signed quotient and remainder of a word below `2³¹` by a positive word below `2³¹`: no corner, and the unsigned ones. -/
theorem divsi_small (u : ArithUnit) (x d : BitVec 32) (hx : x.toNat < 2 ^ 31) (hd0 : 0 < d.toNat) (hd : d.toNat < 2 ^ 31) :
    IntOp.divsi u x d = x / d := by
  have hne : d ≠ 0 := fun h => by rw [h] at hd0; exact absurd hd0 (by decide)
  have hneg : d ≠ -1 := fun h => by rw [h] at hd; exact absurd hd (by decide)
  have hcorner : ¬ IntOp.SDivCorner x d := by
    intro hc; rcases hc with hc | ⟨_, hc⟩
    · exact hne hc
    · exact hneg hc
  have hmx : x.msb = false := BitVec.msb_eq_false_iff_two_mul_lt.mpr (by omega)
  have hmd : d.msb = false := BitVec.msb_eq_false_iff_two_mul_lt.mpr (by omega)
  simp only [IntOp.divsi, if_neg hcorner, BitVec.sdiv_eq, hmx, hmd, BitVec.udiv_eq]

theorem remsi_small (u : ArithUnit) (x d : BitVec 32) (hx : x.toNat < 2 ^ 31) (hd0 : 0 < d.toNat) (hd : d.toNat < 2 ^ 31) :
    IntOp.remsi u x d = x % d := by
  have hne : d ≠ 0 := fun h => by rw [h] at hd0; exact absurd hd0 (by decide)
  have hneg : d ≠ -1 := fun h => by rw [h] at hd; exact absurd hd (by decide)
  have hcorner : ¬ IntOp.SDivCorner x d := by
    intro hc; rcases hc with hc | ⟨_, hc⟩
    · exact hne hc
    · exact hneg hc
  have hmx : x.msb = false := BitVec.msb_eq_false_iff_two_mul_lt.mpr (by omega)
  have hmd : d.msb = false := BitVec.msb_eq_false_iff_two_mul_lt.mpr (by omega)
  simp only [IntOp.remsi, if_neg hcorner, BitVec.srem_eq, hmx, hmd, BitVec.umod_eq]

/-- The lowered floor division on one pair of words: for `0 ≤ x < 2³¹` and `0 < d < 2³¹` it is the natural quotient. -/
theorem floordiv_word (u : ArithUnit) (x d : BitVec 32) (hx : x.toNat < 2 ^ 31) (hd0 : 0 < d.toNat) (hd : d.toNat < 2 ^ 31) :
    Scalar.select (IntOp.andi (IntOp.cmpi .ne (sgn x) (sgn d)) (IntOp.cmpi .ne (IntOp.remsi u x d) 0#32))
        (IntOp.subi (IntOp.divsi u x d) 1#32) (IntOp.divsi u x d)
      = BitVec.ofNat 32 (x.toNat / d.toNat) := by
  have hq : IntOp.divsi u x d = BitVec.ofNat 32 (x.toNat / d.toNat) := by
    rw [divsi_small u x d hx hd0 hd]
    apply BitVec.eq_of_toNat_eq
    rw [BitVec.toNat_udiv, BitVec.toNat_ofNat]
    exact (Nat.mod_eq_of_lt (lt_of_le_of_lt (Nat.div_le_self _ _) x.isLt)).symm
  have hmask : IntOp.andi (IntOp.cmpi .ne (sgn x) (sgn d)) (IntOp.cmpi .ne (IntOp.remsi u x d) 0#32) = 0#1 := by
    rw [sgn_of_pos hd0 hd, remsi_small u x d hx hd0 hd]
    by_cases h0 : x = 0
    · subst h0
      have : ((0 : BitVec 32) % d) = 0#32 := by
        apply BitVec.eq_of_toNat_eq; rw [BitVec.toNat_umod]; simp
      rw [this]
      simp [IntOp.andi, IntOp.cmpi]
    · have h1 : sgn x = 1#32 := by
        have hm : x.msb = false := BitVec.msb_eq_false_iff_two_mul_lt.mpr (by omega)
        simp only [sgn, if_neg h0, hm, Bool.false_eq_true, if_false]
        rfl
      rw [h1]
      simp [IntOp.andi, IntOp.cmpi]
  rw [hmask, ValueIdx.select_zero, hq]

/-- The same on tensors, the divisor a scalar broadcast over the dividend's shape, read at an element `j`. -/
theorem floorDivide_scalar_apply {t : Shape} (h : (⟨0, ![]⟩ : Shape).BroadcastsInDim t ![]) (x : IVec t 32) (d : IVec ⟨0, ![]⟩ 32)
    (j : t.Idx) (hx : (x j).toNat < 2 ^ 31) (hd0 : 0 < (d ValueIdx.ix0).toNat) (hd : (d ValueIdx.ix0).toNat < 2 ^ 31) :
    select (andi (cmpi .ne (signi x) (broadcastInDim t ![] h (signi d)))
          (cmpi .ne (Host.remsi x (broadcastInDim t ![] h d)) (broadcastInDim t ![] h (constantI ⟨0, ![]⟩ 32 0#32))))
        (subi (Host.divsi x (broadcastInDim t ![] h d)) (broadcastInDim t ![] h (constantI ⟨0, ![]⟩ 32 1#32)))
        (Host.divsi x (broadcastInDim t ![] h d)) j
      = BitVec.ofNat 32 ((x j).toNat / (d ValueIdx.ix0).toNat) := by
  have hb : ∀ (v : IVec ⟨0, ![]⟩ 32), broadcastInDim t ![] h v j = v ValueIdx.ix0 := fun v =>
    congrArg v (funext fun a => a.elim0)
  show Scalar.select (IntOp.andi (IntOp.cmpi .ne (sgn (x j)) (broadcastInDim t ![] h (signi d) j))
        (IntOp.cmpi .ne (IntOp.remsi .host (x j) (broadcastInDim t ![] h d j)) (broadcastInDim t ![] h (constantI ⟨0, ![]⟩ 32 0#32) j)))
      (IntOp.subi (IntOp.divsi .host (x j) (broadcastInDim t ![] h d j)) (broadcastInDim t ![] h (constantI ⟨0, ![]⟩ 32 1#32) j))
      (IntOp.divsi .host (x j) (broadcastInDim t ![] h d j)) = _
  rw [hb, hb, hb, hb]
  exact floordiv_word .host (x j) (d ValueIdx.ix0) hx hd0 hd

end Cert.LibFloorDiv
-- ==== Proof.Spec.lean ====
/-
  The specification: a linear layer over a block-dequantized weight, on the extended reals.

  The weight `w` is `[16384, 7168]`, its scale table `s` is `[128, 56]`: entry `(o, k)` of the weight belongs to the
  `128 × 128` block `(o / 128, k / 128)` and is multiplied by that block's scale. The layer's output at `(r, o)` is
  `∑ k, x (r, k) * (w (o, k) * s (o / 128, k / 128))`.

  One way to lay a block's scale over its 128 columns is a product with the 0/1 matrix `E (c, k) = [c = k / 128]`:
  `∑ c, a c * E (c, k)` has one non-zero term, `a (k / 128)`. On the extended reals `a * 0 = 0` and `a * 1 = a` for every
  `a`, infinite or not, so this needs no finiteness.
-/
import Idealize.ShloMosaic.PureOps.Ideal
import Idealize.ShloMosaic.Lib.ValueIdx

noncomputable section

namespace Cert.DequantLinear

open Idealize.ShloMosaic Idealize.ShloMosaic.ValueIdx

/-- The scale block row of weight row `o`. -/
def rowBlk (o : Fin 16384) : Fin 128 := ⟨o.val / 128, by have := o.isLt; omega⟩

/-- The scale block column of weight column `k`. -/
def colBlk (k : Fin 7168) : Fin 56 := ⟨k.val / 128, by have := k.isLt; omega⟩

/-- The layer's output as one function of the three argument arrays, index by index. -/
def deqLinear (x : (⟨2, ![32, 7168]⟩ : Shape).Idx → EReal) (w : (⟨2, ![16384, 7168]⟩ : Shape).Idx → EReal)
    (s : (⟨2, ![128, 56]⟩ : Shape).Idx → EReal) : (⟨2, ![32, 16384]⟩ : Shape).Idx → EReal :=
  fun i => ∑ k : Fin 7168, x (ix2 (i 0) k) * (w (ix2 (i 1) k) * s (ix2 (rowBlk (i 1)) (colBlk k)))

/-- A row of 56 scales against column `k` of the 0/1 block-indicator matrix picks the scale of `k`'s block. -/
theorem sum_indicator (a : Fin 56 → EReal) (k : Fin 7168) :
    ∑ c : Fin 56, a c * (if c.val = k.val / 128 then (1 : EReal) else 0) = a (colBlk k) := by
  rw [Finset.sum_eq_single (colBlk k)]
  · rw [if_pos (show (colBlk k).val = k.val / 128 from rfl), mul_one]
  · intro c _ hc
    rw [if_neg (fun (h : c.val = k.val / 128) => hc (Fin.ext h)), mul_zero]
  · intro h; exact absurd (Finset.mem_univ _) h

end Cert.DequantLinear

end
-- ==== Proof.HostPrefix.lean ====
/-
  What the region finds in the three arrays the host computes before it.

  Before the one kernel region the host lays the scale table out by weight row (row `o` of the `[16384, 56]` table is row
  `o / 128` of the `[128, 56]` one: a broadcast along a new axis of extent 128, then a reshape), builds the 0/1
  block-indicator matrix `E (c, k) = [c = k / 128]` (an iota over the 56 block columns against the floor division of
  an iota over the 7168 columns by 128, compared and converted to a float), and changes the format of `x`. Here each of
  the three arrays is named as a function of the arguments, and read at an index: on the extended reals the indicator is
  `1` or `0`, and a change of float format is the identity.
-/
import proofs.«114543_j18004502905034_1_alg».proof.Proof.Gen.KernelIdeal.Frame
import proofs.«114543_j18004502905034_1_alg».proof.Proof.LibFloorDiv
import proofs.«114543_j18004502905034_1_alg».proof.Proof.Spec
import Idealize.ShloMosaic.Lib.StableHlo.Run
import Idealize.ShloMosaic.Lib.StableHlo.Predicate
import Idealize.ShloMosaic.Lib.Pipeline.Value
import Idealize.ShloMosaic.Lib.ValueIdx

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx Cert.DequantLinear

variable {F : FTy → Type} [FloatOps F]

/-! ## The three arrays as functions of the arguments -/

/-- The words `k / 128` for `k` over the 7168 columns: the lowered floor division of an iota by the constant 128. -/
def colBlockWords : IVec S7168 32 :=
  select
    (andi (cmpi .ne (signi (iotaInDim S7168 32 0)) (broadcastInDim S7168 ![] bcast_S_S7168 (signi (id (constantI S_ 32 128#32)))))
      (cmpi .ne (Host.remsi (iotaInDim S7168 32 0) (broadcastInDim S7168 ![] bcast_S_S7168 (id (constantI S_ 32 128#32))))
        (broadcastInDim S7168 ![] bcast_S_S7168 (constantI S_ 32 0#32))))
    (subi (Host.divsi (iotaInDim S7168 32 0) (broadcastInDim S7168 ![] bcast_S_S7168 (id (constantI S_ 32 128#32))))
      (broadcastInDim S7168 ![] bcast_S_S7168 (constantI S_ 32 1#32)))
    (Host.divsi (iotaInDim S7168 32 0) (broadcastInDim S7168 ![] bcast_S_S7168 (id (constantI S_ 32 128#32))))

/-- The block-indicator matrix: block column `c` against the block of column `k`, as a float. -/
def indicator : FVec F S56x7168 .bf16 :=
  uitofp .bf16 (cmpi .eq
    (broadcastInDim S56x7168 ![0, 1] bcast_S56x1_S56x7168_0_1 (broadcastInDim S56x1 ![0] bcast_S56_S56x1_0 (iotaInDim S56 32 0)))
    (broadcastInDim S56x7168 ![0, 1] bcast_S1x7168_S56x7168_0_1 (broadcastInDim S1x7168 ![1] bcast_S7168_S1x7168_1 colBlockWords)))

/-- The scale table laid out by weight row. -/
def rowScale {α : Type} (s : S128x56.Idx → α) : S16384x56.Idx → α :=
  shapeCast S16384x56 (broadcastInDim S128x128x56 ![0, 2] bcast_S128x56_S128x128x56_0_2 s) shapeCasts_S128x128x56_S16384x56

variable (m : (ℓ : Loc nD τ sig) → Buf (Elt F) ℓ)

set_option maxHeartbeats 1000000 in
/-- The region finds the block-indicator matrix in window 3's array. -/
theorem V_indicator (c : Dev nD) : (V m c main_v10 : FVec F S56x7168 .bf16) = indicator := by
  generalize hR : (indicator : FVec F S56x7168 .bf16) = R
  dsimp only [Gen.V]
  simp only [Gen.hostOps0, Gen.hostOps0_1, Gen.hostOps0_2, List.flatten_cons, List.flatten_nil, List.append_nil, List.cons_append, List.nil_append]
  after_results_simp
  simp only [TRef.toBuf, TRef.ofBuf, cast_eq]
  subst hR
  rfl

/-- The region finds the row-wise scale table in window 2's array. -/
theorem V_rowScale (c : Dev nD) : (V m c main_v1 : FVec F S16384x56 .f32) = rowScale (m ((c : Thread nD τ).loc main_arg2)) := by
  dsimp only [Gen.V]
  simp only [Gen.hostOps0, Gen.hostOps0_1, Gen.hostOps0_2, List.flatten_cons, List.flatten_nil, List.append_nil, List.cons_append, List.nil_append]
  after_results
  all_goals rfl

/-- The region finds `x`, in another float format, in window 0's array. -/
theorem V_xcast (c : Dev nD) : (V m c main_v11 : FVec F S32x7168 .bf16) = truncf .bf16 (m ((c : Thread nD τ).loc main_arg0)) bitsLt_bf16_f32 := by
  dsimp only [Gen.V]
  simp only [Gen.hostOps0, Gen.hostOps0_1, Gen.hostOps0_2, List.flatten_cons, List.flatten_nil, List.append_nil, List.cons_append, List.nil_append]
  after_results
  all_goals rfl

/-! ## Read at an index -/

/-- Row `o` of the row-wise scale table is row `o / 128` of the scale table. -/
theorem rowScale_apply {α : Type} (s : S128x56.Idx → α) (o : Fin 16384) (cc : Fin 56) :
    rowScale s (ix2 o cc) = s (ix2 (rowBlk o) cc) := by
  unfold rowScale
  have ho := o.isLt
  have hc := cc.isLt
  refine (shapeCast_apply _ shapeCasts_S128x128x56_S16384x56 (ix2 o cc)
    (ix3 (⟨o.val / 128, by omega⟩ : Fin 128) (⟨o.val % 128, by omega⟩ : Fin 128) cc) ?_).trans ?_
  · rw [Shape.rowMajor_val_three, Shape.rowMajor_val_two]
    show (o.val / 128 * 128 + o.val % 128) * 56 + cc.val = o.val * 56 + cc.val
    omega
  · refine broadcastInDim_apply _ bcast_S128x56_S128x128x56_0_2 s _ (ix2 (rowBlk o) cc) (fun a => ?_)
    match a with
    | ⟨0, _⟩ => show o.val / 128 = if (128 : Nat) = 1 then 0 else o.val / 128; rw [if_neg (by decide)]
    | ⟨1, _⟩ => show cc.val = if (56 : Nat) = 1 then 0 else cc.val; rw [if_neg (by decide)]

/-- The word the floor division leaves at column `k` is `k / 128`. -/
theorem colBlockWords_apply (k : Fin 7168) : colBlockWords (Shape.Idx.ofFin k) = BitVec.ofNat 32 (k.val / 128) := by
  have hk := k.isLt
  have hx : (iotaInDim S7168 32 0 (Shape.Idx.ofFin k)).toNat = k.val := by
    show (BitVec.ofNat 32 k.val).toNat = k.val
    rw [BitVec.toNat_ofNat]; omega
  unfold colBlockWords
  rw [Cert.LibFloorDiv.floorDivide_scalar_apply bcast_S_S7168 (iotaInDim S7168 32 0) (id (constantI S_ 32 128#32)) (Shape.Idx.ofFin k)
    (by rw [hx]; omega) (by decide) (by decide), hx]
  rfl

/-- On the extended reals the block-indicator matrix is `1` where `c` is the block of column `k`, and `0` elsewhere. -/
theorem indicator_apply (cc : Fin 56) (k : Fin 7168) :
    indicator (F := Ideal) (ix2 cc k) = if cc.val = k.val / 128 then (1 : EReal) else 0 := by
  have hc := cc.isLt
  have hk := k.isLt
  have hA : broadcastInDim S56x7168 ![0, 1] bcast_S56x1_S56x7168_0_1 (broadcastInDim S56x1 ![0] bcast_S56_S56x1_0 (iotaInDim S56 32 0)) (ix2 cc k)
      = BitVec.ofNat 32 cc.val :=
    Predicate.bcast_rows bcast_S56_S56x1_0 bcast_S56x1_S56x7168_0_1 (iotaInDim S56 32 0) cc k
  have hB : broadcastInDim S56x7168 ![0, 1] bcast_S1x7168_S56x7168_0_1 (broadcastInDim S1x7168 ![1] bcast_S7168_S1x7168_1 colBlockWords) (ix2 cc k)
      = BitVec.ofNat 32 (k.val / 128) :=
    (Predicate.bcast_cols bcast_S7168_S1x7168_1 bcast_S1x7168_S56x7168_0_1 colBlockWords cc k).trans (colBlockWords_apply k)
  show (((IntOp.cmpi .eq
      (broadcastInDim S56x7168 ![0, 1] bcast_S56x1_S56x7168_0_1 (broadcastInDim S56x1 ![0] bcast_S56_S56x1_0 (iotaInDim S56 32 0)) (ix2 cc k))
      (broadcastInDim S56x7168 ![0, 1] bcast_S1x7168_S56x7168_0_1 (broadcastInDim S1x7168 ![1] bcast_S7168_S1x7168_1 colBlockWords) (ix2 cc k))).toNat : ℝ) : EReal) = _
  rw [hA, hB]
  by_cases h : cc.val = k.val / 128
  · rw [if_pos h, Predicate.cmpi_eq_iff.mpr (by rw [h])]
    simp
  · have h0 : IntOp.cmpi .eq (BitVec.ofNat 32 cc.val) (BitVec.ofNat 32 (k.val / 128)) = 0#1 :=
      eq_zero_of_ne_one fun h1 => h (by
        have e := congrArg BitVec.toNat (Predicate.cmpi_eq_iff.mp h1)
        simp only [BitVec.toNat_ofNat] at e
        omega)
    rw [if_neg h, h0]
    simp

end Cert.KernelIdeal.Prefix

end
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.LibTransposedDot.lean ====
/-
  A matrix product contracted on the LAST axis of both operands, `A · Bᵀ`, read at an index, and the row forms of a
  column (extended reals, the ideal instance).

  With the dimension numbers "contract axis 1 of the left with axis 1 of the right" an `m × k` by `n × k` product reads,
  at `(p, q)`, `∑ c, A (p, c) * B (q, c)` — the host's `dot_general` and a kernel's product accumulated into a zero splat
  alike. A column `[a, 1]` transposed to the row `[1, a]` reads, at `(u, i)`, the column's entry `i`; that row laid over
  the rows of a `[b, a]` matrix reads, at `(p, c)`, the row's entry `c`; and a column `[a, 1]` reshaped to the vector `[a]`
  reads, at `i`, the column's entry `i`.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.LibTransposedDot

open Idealize.ShloMosaic Idealize.ShloMosaic.ValueIdx

variable {α : Type}

/-! ## `A · Bᵀ` at an index -/

/-- The host's `dot_general` contracting axis 1 of both operands, read at `(p, q)`. -/
theorem dotGeneral_transposedRhs_apply {m k n : ℕ} {φ₁ φ₂ : FTy} (prec : Option ContractPrecision)
    (A : FVec Ideal ⟨2, ![m, k]⟩ φ₁) (B : FVec Ideal ⟨2, ![n, k]⟩ φ₂) (p : Fin m) (q : Fin n) :
    Host.dotGeneral (DotDims.transposedRhs m k n) prec A B (ix2 p q) = ∑ c : Fin k, A (ix2 p c) * B (ix2 q c) := by
  show FloatOps.dotGeneral _ prec _ A B (ix2 p q) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 p q) ((contrEquiv1 _ k rfl rfl).symm c) = ix2 p c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 p q) ((contrEquiv1 _ k rfl rfl).symm c) = ix2 q c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- A kernel's product with the same dimension numbers into a zero splat, read at `(p, q)`: the same sum. -/
theorem matmul_transposedRhs_apply {m k n : ℕ} {φ₁ φ₂ : FTy} (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (p : Fin m) (q : Fin n) :
    matmul d prec A B (constant ⟨2, ![m, n]⟩ .f32 0x00000000#32) (ix2 p q) = ∑ c : Fin k, A (ix2 p c) * B (ix2 q c) := by
  subst hd
  rw [matmul_zero_eq_dotGeneral]
  exact dotGeneral_transposedRhs_apply prec A B p q

/-! ## A column as a row, and the row over every row of a matrix -/

/-- A column `[a, 1]` transposed to the row `[1, a]` reads, at `(u, i)`, the column at `(i, 0)`. -/
theorem transpose_a1_1a_apply {a : ℕ} (v : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] v h (ix2 u i) = v (ix2 i (0 : Fin 1)) := by
  refine transpose_apply [1, 0] v h (ix2 u i) (ix2 i (0 : Fin 1)) fun b => ?_
  match b with
  | ⟨0, _⟩ =>
    show (0 : ℕ) = u.val
    omega
  | ⟨1, _⟩ => rfl

/-- A row `[1, a]` broadcast over the rows of `[b, a]` reads, at `(p, c)`, the row at `(0, c)`. -/
theorem broadcastTo_1a_ba_apply {a b : ℕ} (v : (⟨2, ![1, a]⟩ : Shape).Idx → α)
    (h : (⟨2, ![1, a]⟩ : Shape).Broadcasts ⟨2, ![b, a]⟩) (p : Fin b) (c : Fin a) :
    broadcastTo ⟨2, ![b, a]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if a = 1 then 0 else c.val
    split
    · have := c.isLt; omega
    · rfl

/-- A column `[a, 1]` reshaped to the vector `[a]` reads, at `i`, the column at `(i, 0)`. -/
theorem shapeCast_a1_a_apply {a : ℕ} (v : (⟨2, ![a, 1]⟩ : Shape).Idx → α) (h : (⟨2, ![a, 1]⟩ : Shape).ShapeCasts ⟨1, ![a]⟩)
    (i : Fin a) : shapeCast ⟨1, ![a]⟩ v h (ix1 i) = v (ix2 i (0 : Fin 1)) :=
  shapeCast_apply v h _ _ (by
    rw [Shape.rowMajor_val_two, Shape.rowMajor_val_one]
    show i.val * 1 + 0 = i.val
    omega)

end Cert.LibTransposedDot

end
-- ==== Proof.Payload.lean ====
/-
  The kernel body's one stored value, read at an index on the extended reals.

  The body multiplies the `[256, 56]` block of row-wise scales by the `[56, 7168]` block-indicator matrix (a plain
  matrix product into zero), multiplies the `[256, 7168]` weight block by the result entry by entry, and contracts `x`
  with that product along the last axis of both (`x · (w ∘ (s · E))ᵀ`, again into zero). Changes of float format and
  shape casts to the same shape are the identity. So at `(p, q)` the stored value is
  `∑ k, x (p, k) * (w (q, k) * ∑ c, s (q, c) * E (c, k))`.
-/
import proofs.«114543_j18004502905034_1_alg».proof.Proof.Gen.KernelIdeal.Skeleton
import proofs.«114543_j18004502905034_1_alg».proof.Proof.LibKeepdims
import proofs.«114543_j18004502905034_1_alg».proof.Proof.LibTransposedDot
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The scale-expanding product has the plain dimension numbers. -/
theorem dot_scale_plain : dot_S256x56_S56x7168_S256x7168_1_0_0_1_n_n = DotDims.plain 256 56 7168 := rfl

/-- The main product contracts the last axis of both operands. -/
theorem dot_out_transposed : dot_S32x7168_S256x7168_S32x256_1_1_0_0_n_n = DotDims.transposedRhs 32 7168 256 := rfl

/-- The stored value at `(p, q)`, from the four loaded blocks. -/
theorem pay_apply (sblk : FVec Ideal S256x56 .f32) (eblk : FVec Ideal S56x7168 .bf16) (wblk : FVec Ideal S256x7168 .f32)
    (xblk : FVec Ideal S32x7168 .bf16) (p : Fin 32) (q : Fin 256) :
    k0_pay1 (F := Ideal) sblk eblk wblk xblk (ix2 p q)
      = ∑ k : Fin 7168, xblk (ix2 p k) * (wblk (ix2 q k) * ∑ c : Fin 56, sblk (ix2 q c) * eblk (ix2 c k)) := by
  unfold k0_pay1
  refine (Cert.LibTransposedDot.matmul_transposedRhs_apply _ dot_out_transposed none _ _ p q).trans ?_
  refine Finset.sum_congr rfl fun k _ => ?_
  rw [shapeCast_self]
  refine congrArg (xblk (ix2 p k) * ·) ?_
  show wblk (ix2 q k) * _ = _
  refine congrArg (wblk (ix2 q k) * ·) ?_
  refine (Cert.LibKeepdims.matmul_plain_apply _ dot_scale_plain none _ _ q k).trans ?_
  rw [shapeCast_self, shapeCast_self]
  rfl

end Cert.KernelIdeal.Payload

end
-- ==== Proof.KernelValue.lean ====
/-
  The kernel's result array is the specification.

  The grid has 64 points; point `t` holds rows `256 t … 256 t + 255` of the weight and of the row-wise scale table, all
  of `x` and of the block-indicator matrix, and writes columns `256 t … 256 t + 255` of the `[32, 16384]` result. With the
  body's value read at an index, the host-made arrays read at an index and the indicator sum collapsed, what point `t`
  writes at `(p, q)` is the specification at `(p, 256 t + q)`; the 64 column blocks cover the result array.
-/
import proofs.«114543_j18004502905034_1_alg».proof.Proof.Gen.KernelIdeal.Value
import proofs.«114543_j18004502905034_1_alg».proof.Proof.HostPrefix
import proofs.«114543_j18004502905034_1_alg».proof.Proof.Payload
import proofs.«114543_j18004502905034_1_alg».proof.Proof.Spec

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.DequantLinear

/-! ## One grid point, over plain blocks -/

/-- Column `256 t + q` of the result, for `t` a grid point and `q` a column of its block. -/
def outCol (tv : ℕ) (ht : tv < 64) (q : Fin 256) : Fin 16384 := ⟨tv * 256 + q.val, by have := q.isLt; omega⟩

/-- If the four blocks hold what the windows stage at point `t` — all of `x`; rows `256 t + q` of the weight and of the
    scale table laid out by row; the 0/1 indicator — the body's value at `(p, q)` is the specification at `(p, 256 t + q)`. -/
theorem point_eq (x : FVec Ideal S32x7168 .f32) (w : FVec Ideal S16384x7168 .f32) (s : FVec Ideal S128x56 .f32)
    (xb : FVec Ideal S32x7168 .bf16) (wb : FVec Ideal S256x7168 .f32) (sb : FVec Ideal S256x56 .f32) (eb : FVec Ideal S56x7168 .bf16)
    (tv : ℕ) (ht : tv < 64)
    (hx : ∀ (p : Fin 32) (k : Fin 7168), xb (ix2 p k) = x (ix2 p k))
    (hw : ∀ (q : Fin 256) (k : Fin 7168), wb (ix2 q k) = w (ix2 (outCol tv ht q) k))
    (hs : ∀ (q : Fin 256) (cc : Fin 56), sb (ix2 q cc) = s (ix2 (rowBlk (outCol tv ht q)) cc))
    (he : ∀ (cc : Fin 56) (k : Fin 7168), eb (ix2 cc k) = if cc.val = k.val / 128 then (1 : EReal) else 0)
    (p : Fin 32) (q : Fin 256) :
    k0_pay1 (F := Ideal) sb eb wb xb (ix2 p q) = deqLinear x w s (ix2 p (outCol tv ht q)) := by
  rw [Cert.KernelIdeal.Payload.pay_apply]
  unfold deqLinear
  refine Finset.sum_congr rfl fun k _ => ?_
  rw [hx, hw]
  refine congrArg (x (ix2 p k) * ·) (congrArg (w (ix2 (outCol tv ht q) k) * ·) ?_)
  simp only [hs, he]
  exact sum_indicator (fun cc => s (ix2 (rowBlk (outCol tv ht q)) cc)) k

/-! ## The windows' blocks at a point -/

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: `x` and the indicator stay at block `(0, 0)`, the weight and the scales move down by
    one block of rows per point, the result moves right by one block of columns per point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- Every block of columns is some point's. -/
theorem idx_onto : ∀ q1 : Fin 64, ∃ t : Fin cfg0.N, win0_4.index t = ![0, q1.val] :=
  (by decide +kernel : ∀ q1 : Fin 64, ∃ t : Fin grid0.N, win0_4.index t = ![0, q1.val])

theorem t_lt (t : Fin cfg0.N) : t.val < 64 := lt_of_lt_of_eq t.isLt N_0

/-- Window 0's block at any point is `x`. -/
theorem xblock_apply (c : Dev nD) (t : Fin cfg0.N) (p : Fin 32) (k : Fin 7168) :
    (iblk m c 0 t : FVec Ideal S32x7168 .bf16) (ix2 p k) = m ((c : Thread nD τ).loc main_arg0) (ix2 p k) := by
  obtain ⟨e0, e1, -⟩ := idx_facts t
  show V m c main_v11 (((cfg0.win 0).blk t).view.emb (ix2 p k)) = _
  have h : ((cfg0.win 0).blk t).view.emb (ix2 p k) = ix2 p k := by
    funext a; apply Fin.ext
    match a with
    | ⟨0, _⟩ => exact (show win0_0.index t (0 : Fin 2) * 32 + 1 * p.val = p.val by omega)
    | ⟨1, _⟩ => exact (show win0_0.index t (1 : Fin 2) * 7168 + 1 * k.val = k.val by omega)
  rw [h, Cert.KernelIdeal.Prefix.V_xcast]
  rfl

/-- Window 1's block at point `t` is rows `256 t …` of the weight. -/
theorem wblock_apply (c : Dev nD) (t : Fin cfg0.N) (q : Fin 256) (k : Fin 7168) :
    (iblk m c 1 t : FVec Ideal S256x7168 .f32) (ix2 q k) = m ((c : Thread nD τ).loc main_arg1) (ix2 (outCol t.val (t_lt t) q) k) := by
  obtain ⟨-, -, e2, e3, -⟩ := idx_facts t
  show V m c main_arg1 (((cfg0.win 1).blk t).view.emb (ix2 q k)) = _
  have h : ((cfg0.win 1).blk t).view.emb (ix2 q k) = ix2 (outCol t.val (t_lt t) q) k := by
    funext a; apply Fin.ext
    match a with
    | ⟨0, _⟩ => exact (show win0_1.index t (0 : Fin 2) * 256 + 1 * q.val = t.val * 256 + q.val by omega)
    | ⟨1, _⟩ => exact (show win0_1.index t (1 : Fin 2) * 7168 + 1 * k.val = k.val by omega)
  rw [h, V_main_arg1]

/-- Window 2's block at point `t` is rows `256 t …` of the scale table laid out by row. -/
theorem sblock_apply (c : Dev nD) (t : Fin cfg0.N) (q : Fin 256) (cc : Fin 56) :
    (iblk m c 2 t : FVec Ideal S256x56 .f32) (ix2 q cc)
      = m ((c : Thread nD τ).loc main_arg2) (ix2 (rowBlk (outCol t.val (t_lt t) q)) cc) := by
  obtain ⟨-, -, -, -, e4, e5, -⟩ := idx_facts t
  show V m c main_v1 (((cfg0.win 2).blk t).view.emb (ix2 q cc)) = _
  have h : ((cfg0.win 2).blk t).view.emb (ix2 q cc) = ix2 (outCol t.val (t_lt t) q) cc := by
    funext a; apply Fin.ext
    match a with
    | ⟨0, _⟩ => exact (show win0_2.index t (0 : Fin 2) * 256 + 1 * q.val = t.val * 256 + q.val by omega)
    | ⟨1, _⟩ => exact (show win0_2.index t (1 : Fin 2) * 56 + 1 * cc.val = cc.val by omega)
  rw [h, Cert.KernelIdeal.Prefix.V_rowScale, Cert.KernelIdeal.Prefix.rowScale_apply]

/-- Window 3's block at any point is the 0/1 indicator. -/
theorem eblock_apply (c : Dev nD) (t : Fin cfg0.N) (cc : Fin 56) (k : Fin 7168) :
    (iblk m c 3 t : FVec Ideal S56x7168 .bf16) (ix2 cc k) = if cc.val = k.val / 128 then (1 : EReal) else 0 := by
  obtain ⟨-, -, -, -, -, -, e6, e7, -⟩ := idx_facts t
  show V m c main_v10 (((cfg0.win 3).blk t).view.emb (ix2 cc k)) = _
  have h : ((cfg0.win 3).blk t).view.emb (ix2 cc k) = ix2 cc k := by
    funext a; apply Fin.ext
    match a with
    | ⟨0, _⟩ => exact (show win0_3.index t (0 : Fin 2) * 56 + 1 * cc.val = cc.val by omega)
    | ⟨1, _⟩ => exact (show win0_3.index t (1 : Fin 2) * 7168 + 1 * k.val = k.val by omega)
  rw [h, Cert.KernelIdeal.Prefix.V_indicator]
  exact Cert.KernelIdeal.Prefix.indicator_apply cc k

/-! ## From blocks to the array -/

/-- The specification of the arguments as launched on core `c`. -/
abbrev spec (c : Dev nD) : S32x16384.Idx → EReal :=
  deqLinear (m ((c : Thread nD τ).loc main_arg0)) (m ((c : Thread nD τ).loc main_arg1)) (m ((c : Thread nD τ).loc main_arg2))

/-- What point `t` writes back is block `t` of the specification. -/
theorem flushed_eq (c : Dev nD) (t : Fin cfg0.N) :
    (dats m 0 c).flushed 4 t = ((cfg0.win 4).blk t).view.read (Elt Ideal) (spec m c) := by
  rw [Cert.KernelIdeal.Value.flushed4]
  unfold out0_4
  rw [View.canon_unit_zero hz]
  simp only [View.ld_unit_zero (S := S256x56) hz, View.ld_unit_zero (S := S56x7168) hz, View.ld_unit_zero (S := S256x7168) hz,
    View.ld_unit_zero (S := S32x7168) hz]
  obtain ⟨-, -, -, -, -, -, -, -, e8, e9⟩ := idx_facts t
  funext j
  obtain ⟨p, q, rfl⟩ : ∃ (p : Fin 32) (q : Fin 256), j = ix2 p q := ⟨j 0, j 1, eq_ix2 j⟩
  show k0_pay1 (F := Ideal) (iblk m c 2 t) (iblk m c 3 t) (iblk m c 1 t) (iblk m c 0 t) (ix2 p q)
    = spec m c (((cfg0.win 4).blk t).view.emb (ix2 p q))
  have h : ((cfg0.win 4).blk t).view.emb (ix2 p q) = ix2 p (outCol t.val (t_lt t) q) := by
    funext a; apply Fin.ext
    match a with
    | ⟨0, _⟩ => exact (show win0_4.index t (0 : Fin 2) * 32 + 1 * p.val = p.val by omega)
    | ⟨1, _⟩ => exact (show win0_4.index t (1 : Fin 2) * 256 + 1 * q.val = t.val * 256 + q.val by omega)
  rw [h]
  exact point_eq _ _ _ _ _ _ _ t.val (t_lt t) (xblock_apply m c t) (wblock_apply m c t) (sblock_apply m c t) (eblock_apply m c t) p q

/-- An index of the result array is in point `t`'s block iff each coordinate is in the block's range on its axis. -/
theorem mem_blk (t : Fin cfg0.N) (i : S32x16384.Idx) :
    i ∈ ((cfg0.win 4).blk t).view.set ↔ ∀ a : Fin 2, win0_4.index t a * S32x256.size a ≤ (i a).val ∧ (i a).val < win0_4.index t a * S32x256.size a + S32x256.size a := by
  show i ∈ ((View.whole main_v12).slice (win0_4.rect t)).set ↔ _
  rw [View.set_slice_whole, Rect.mem_set_unit]
  exact Iff.rfl

/-- The 64 column blocks cover the result array: column `j` is in the block of point `j / 256`. -/
theorem cover (i : S32x16384.Idx) : ∃ t : Fin cfg0.N, (cfg0.win 4).flush t = true ∧ i ∈ ((cfg0.win 4).blk t).view.set := by
  have hi0 : (i 0).val < 32 := (i 0).isLt
  have hi1 : (i 1).val < 16384 := (i 1).isLt
  obtain ⟨t, ht⟩ := idx_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk]
  intro a
  match a with
  | ⟨0, _⟩ => exact (show win0_4.index t (0 : Fin 2) * 32 ≤ (i 0).val ∧ (i 0).val < win0_4.index t (0 : Fin 2) * 32 + 32 by omega)
  | ⟨1, _⟩ => exact (show win0_4.index t (1 : Fin 2) * 256 ≤ (i 1).val ∧ (i 1).val < win0_4.index t (1 : Fin 2) * 256 + 256 by omega)

/-- The result array after the run is the specification. -/
theorem final (c : Dev nD) : (dats m 0 c).arrAt 4 cfg0.N = spec m c :=
  (dats m 0 c).arrAt_eq_of_cover 4 (spec m c) (fun t _ => flushed_eq m c t) cover

/-- The kernel's run with the result array named: the specification of the arguments, which end unchanged. -/
theorem run : θ_run defs (onTc (τ := τ) (main (F := Ideal))) ⟨m, fun _ => 0, ρ⟩ fun r => ∀ c : Dev nD,
      r.2.mem ((c : Thread nD τ).loc main_v12) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.KValue

end
-- ==== Proof.RefValue.lean ====
/-
  The reference's result is the specification.

  The reference views the `[16384, 7168]` weight as `[128, 128, 56, 128]` (row `o` is `(o / 128, o % 128)`, column `k` is
  `(k / 128, k % 128)`), multiplies by the scale table laid over the two inner axes, views the product as
  `[16384, 7168]` again and contracts `x` with it along the last axis of both. Entry `(o, k)` of the viewed-back product is
  `w (o, k) * s (o / 128, k / 128)`: the two reshapes are inverse to each other on the row-major position `o * 7168 + k`,
  whose first and third mixed-radix digits are `o / 128` and `k / 128`.
-/
import proofs.«114543_j18004502905034_1_alg».proof.Proof.Gen.ReferenceIdeal.Read
import proofs.«114543_j18004502905034_1_alg».proof.Proof.Spec

noncomputable section

namespace Cert.ReferenceIdeal.RefValue

open Cert.ReferenceIdeal Cert.ReferenceIdeal.Read Idealize.ShloMosaic Idealize.ShloMosaic.ValueIdx Cert.DequantLinear

/-- The left operand of the contraction is read at `(r, k)`. -/
theorem lidx_eq (i : S32x16384.Idx) (k : Fin 7168) : lidx_main_v5 i k = ix2 (i 0) k :=
  funext fun a => Fin.ext (by match a with | ⟨0, _⟩ => rfl | ⟨1, _⟩ => rfl)

/-- Through the reshape back and the reshape forth, the weight is read at `(o, k)`. -/
theorem widx_eq (i : S32x16384.Idx) (k : Fin 7168) : idx_main_v0 (idx_main_v4 (ridx_main_v5 i k)) = ix2 (i 1) k :=
  funext fun a => Fin.ext (by
    have h1 : (i 1).val < 16384 := (i 1).isLt
    have hk := k.isLt
    match a with
    | ⟨0, _⟩ =>
      exact (show (((((i 1).val * 7168 + k.val) / 917504 * 128 + ((i 1).val * 7168 + k.val) / 7168 % 128) * 56 + ((i 1).val * 7168 + k.val) / 128 % 56) * 128 + ((i 1).val * 7168 + k.val) % 128) / 7168 = (i 1).val by omega)
    | ⟨1, _⟩ =>
      exact (show (((((i 1).val * 7168 + k.val) / 917504 * 128 + ((i 1).val * 7168 + k.val) / 7168 % 128) * 56 + ((i 1).val * 7168 + k.val) / 128 % 56) * 128 + ((i 1).val * 7168 + k.val) % 128) % 7168 = k.val by omega))

/-- Through the two broadcasts, the scale table is read at the block `(o / 128, k / 128)`. -/
theorem sidx_eq (i : S32x16384.Idx) (k : Fin 7168) :
    idx_main_v1 (idx_main_v2 (idx_main_v4 (ridx_main_v5 i k))) = ix2 (rowBlk (i 1)) (colBlk k) :=
  funext fun a => Fin.ext (by
    have h1 : (i 1).val < 16384 := (i 1).isLt
    have hk := k.isLt
    match a with
    | ⟨0, _⟩ => exact (show ((i 1).val * 7168 + k.val) / 917504 = (i 1).val / 128 by omega)
    | ⟨1, _⟩ => exact (show ((i 1).val * 7168 + k.val) / 128 % 56 = k.val / 128 by omega))

/-- The reference's result, as a function of the three arguments, is the specification. -/
theorem ref_eq (x : FVec Ideal S32x7168 .f32) (w : FVec Ideal S16384x7168 .f32) (s : FVec Ideal S128x56 .f32) :
    val_main_v5 (F := Ideal) x w s = deqLinear x w s := by
  funext i
  rw [val_main_v5_apply]
  unfold deqLinear
  refine Finset.sum_congr rfl fun k _ => ?_
  rw [lidx_eq, val_main_v4_apply, val_main_v3_apply, val_main_v0_apply, val_main_v2_apply, val_main_v1_apply, widx_eq, sidx_eq]
  rfl

end Cert.ReferenceIdeal.RefValue

end
-- ==== Proof.lean ====
/-
  A linear layer over a block-dequantized weight: the kernel against its reference, on the extended reals.

  Both programs compute, at `(r, o)`, `∑ k, x (r, k) * (w (o, k) * s (o / 128, k / 128))` (Proof/Spec.lean). The reference
  reaches the block scale by viewing the weight as `[128, 128, 56, 128]` (Proof/RefValue.lean). The kernel lays the
  scale table out by weight row on the host and, inside the body, spreads each row's 56 scales over the 7168 columns
  by a product with the 0/1 matrix `E (c, k) = [c = k / 128]`, whose column `k` has the single one at `c = k / 128`
  (Proof/HostPrefix.lean, Proof/Payload.lean); the grid's 64 points each write one block of 256 result columns, and
  the blocks cover the result (Proof/KernelValue.lean). The two sums agree term by term: `a * 0 = 0` and `a * 1 = a` hold
  for every extended real, so no finiteness of the inputs is used. Changes of float format are the identity on the
  extended reals. The three frames are the programs' runs with the result dropped; the idealization rewrote nothing.
-/
import proofs.«114543_j18004502905034_1_alg».proof.Defs
import proofs.«114543_j18004502905034_1_alg».proof.Proof.Gen.Kernel
import proofs.«114543_j18004502905034_1_alg».proof.Proof.Gen.Kernel.Skeleton
import proofs.«114543_j18004502905034_1_alg».proof.Proof.Gen.Kernel.Launch
import proofs.«114543_j18004502905034_1_alg».proof.Proof.Gen.Kernel.Points
import proofs.«114543_j18004502905034_1_alg».proof.Proof.Gen.Kernel.Frame
import proofs.«114543_j18004502905034_1_alg».proof.Proof.Gen.KernelIdeal
import proofs.«114543_j18004502905034_1_alg».proof.Proof.Gen.KernelIdeal.Skeleton
import proofs.«114543_j18004502905034_1_alg».proof.Proof.Gen.KernelIdeal.Launch
import proofs.«114543_j18004502905034_1_alg».proof.Proof.Gen.KernelIdeal.Points
import proofs.«114543_j18004502905034_1_alg».proof.Proof.Gen.KernelIdeal.Frame
import proofs.«114543_j18004502905034_1_alg».proof.Proof.Gen.ReferenceIdeal
import proofs.«114543_j18004502905034_1_alg».proof.Proof.Gen.Pre_finite_inputs
import proofs.«114543_j18004502905034_1_alg».proof.Proof.Gen.KernelIdeal.Value
import proofs.«114543_j18004502905034_1_alg».proof.Proof.Gen.ReferenceIdeal.Run
import proofs.«114543_j18004502905034_1_alg».proof.Proof.Gen.ReferenceIdeal.Read
import proofs.«114543_j18004502905034_1_alg».proof.Proof.KernelValue
import proofs.«114543_j18004502905034_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the specification of its arguments, the reference's at the same function of
    arguments that agree with them. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
